-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x2048 : Shape := ⟨2, ![4096, 2048]⟩
abbrev S4096x1 : Shape := ⟨2, ![4096, 1]⟩
abbrev S4096 : Shape := ⟨1, ![4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x4096x4096 .f32) (main_arg1 : IVec S4096x2048 32) (main_arg2 : FVec F S4096x1 .f32) (main_arg3 : FVec F S4096x1 .f32) (main_arg4 : FVec F S4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x1 .f32 := Host.absf main_arg3
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x4096x4096 : Shape := ⟨3, ![4, 4096, 4096]⟩
abbrev S4096x2048 : Shape := ⟨2, ![4096, 2048]⟩
abbrev S4096x1 : Shape := ⟨2, ![4096, 1]⟩
abbrev S4096 : Shape := ⟨1, ![4096]⟩
abbrev S_ : Shape := ⟨0, ![]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S1x4096 : Shape := ⟨2, ![1, 4096]⟩
abbrev S16384x4096 : Shape := ⟨2, ![16384, 4096]⟩
abbrev S256x4096 : Shape := ⟨2, ![256, 4096]⟩

abbrev nBuf : Space → Nat
  | .hbm => 28
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S4096x2048, .i32⟩
  | .hbm, ⟨2, _⟩ => ⟨S4096x1, .f32⟩
  | .hbm, ⟨3, _⟩ => ⟨S4096x1, .f32⟩
  | .hbm, ⟨4, _⟩ => ⟨S4096, .f32⟩
  | .hbm, ⟨5, _⟩ => ⟨S_, .i32⟩
  | .hbm, ⟨6, _⟩ => ⟨S4096x2048, .i32⟩
  | .hbm, ⟨7, _⟩ => ⟨S4096x2048, .i32⟩
  | .hbm, ⟨8, _⟩ => ⟨S_, .i32⟩
  | .hbm, ⟨9, _⟩ => ⟨S4096x2048, .i32⟩
  | .hbm, ⟨10, _⟩ => ⟨S4096x2048, .i32⟩
  | .hbm, ⟨11, _⟩ => ⟨S_, .i32⟩
  | .hbm, ⟨12, _⟩ => ⟨S4096x2048, .i32⟩
  | .hbm, ⟨13, _⟩ => ⟨S4096x2048, .i32⟩
  | .hbm, ⟨14, _⟩ => ⟨S4096x2048x1, .i32⟩
  | .hbm, ⟨15, _⟩ => ⟨S4096x2048x1, .i32⟩
  | .hbm, ⟨16, _⟩ => ⟨S4096x2048x2, .i32⟩
  | .hbm, ⟨17, _⟩ => ⟨S4096x4096, .i32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .bf16⟩
  | .hbm, ⟨24, _⟩ => ⟨S1x4096, .f32⟩
  | .hbm, ⟨25, _⟩ => ⟨S16384x4096, .f32⟩
  | .hbm, ⟨26, _⟩ => ⟨S16384x4096, .f32⟩
  | .hbm, ⟨27, _⟩ => ⟨S4x4096x4096, .f32⟩
  | .local _ .vmem, ⟨0, _⟩ => ⟨S256x4096, .f32⟩
  | .local _ .vmem, ⟨1, _⟩ => ⟨S256x4096, .f32⟩
  | .local _ .vmem, ⟨2, _⟩ => ⟨S4096x4096, .bf16⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  bcast_S4096x1_S4096x4096_0_1 : S4096x1.BroadcastsInDim S4096x4096 (![0, 1] : Fin 2 → Fin S4096x4096.rank)
  bitsLt_bf16_f32 : FTy.bits .bf16 < FTy.bits .f32
  shapeCasts_S4096_S1x4096 : S4096.ShapeCasts S1x4096
  shapeCasts_S4x4096x4096_S16384x4096 : S4x4096x4096.ShapeCasts S16384x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S16384x4096_S4x4096x4096 : S16384x4096.ShapeCasts S4x4096x4096
  dot_S256x4096_S4096x4096_S256x4096_1_1_0_0_n_n_wf : DotDims.WF S256x4096 S4096x4096 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S16384x4096.size a
  hwx0_3 : ∀ i : grid0.Coords, EltTy.bits .f32 = 32 ∨ (Rect.block (s := S16384x4096) S256x4096.size (cc0_transform_3 i) (hinb0_3 i)).WholeWords (EltTy.packing .f32)

variable [Facts₀]

def dot_S256x4096_S4096x4096_S256x4096_1_1_0_0_n_n : DotDims S256x4096 S4096x4096 S256x4096 where
  lhsContracting := [1]
  rhsContracting := [1]
  lhsNonContracting := [0]
  rhsNonContracting := [0]
  lhsBatch := []
  rhsBatch := []
  wf := dot_S256x4096_S4096x4096_S256x4096_1_1_0_0_n_n_wf

abbrev win0_0 : Pipeline.Window sig grid0 :=
  Pipeline.Window.ofSpec (Memref.whole main_v17) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4096x2048 : Shape := ⟨2, ![4096, 2048]⟩
abbrev S4096x1 : Shape := ⟨2, ![4096, 1]⟩
abbrev S4096 : Shape := ⟨1, ![4096]⟩
abbrev S_ : Shape := ⟨0, ![]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S1x1x4096 : Shape := ⟨3, ![1, 1, 4096]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x2048, .i32⟩
  | .hbm, ⟨2, _⟩ => ⟨S4096x1, .f32⟩
  | .hbm, ⟨3, _⟩ => ⟨S4096x1, .f32⟩
  | .hbm, ⟨4, _⟩ => ⟨S4096, .f32⟩
  | .hbm, ⟨5, _⟩ => ⟨S_, .i32⟩
  | .hbm, ⟨6, _⟩ => ⟨S4096x2048, .i32⟩
  | .hbm, ⟨7, _⟩ => ⟨S4096x2048, .i32⟩
  | .hbm, ⟨8, _⟩ => ⟨S_, .i32⟩
  | .hbm, ⟨9, _⟩ => ⟨S4096x2048, .i32⟩
  | .hbm, ⟨10, _⟩ => ⟨S4096x2048, .i32⟩
  | .hbm, ⟨11, _⟩ => ⟨S_, .i32⟩
  | .hbm, ⟨12, _⟩ => ⟨S4096x2048, .i32⟩
  | .hbm, ⟨13, _⟩ => ⟨S4096x2048, .i32⟩
  | .hbm, ⟨14, _⟩ => ⟨S4096x2048x1, .i32⟩
  | .hbm, ⟨15, _⟩ => ⟨S4096x2048x1, .i32⟩
  | .hbm, ⟨16, _⟩ => ⟨S4096x2048x2, .i32⟩
  | .hbm, ⟨17, _⟩ => ⟨S4096x4096, .i32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4x4096x4096, .f32⟩
  | .hbm, ⟨24, _⟩ => ⟨S1x1x4096, .f32⟩
  | .hbm, ⟨25, _⟩ => ⟨S4x4096x4096, .f32⟩
  | .hbm, ⟨26, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  dot_S4x4096x4096_S4096x4096_S4x4096x4096_2_1_01_0_n_n_wf : DotDims.WF S4x4096x4096 S4096x4096 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf

class Facts : Prop extends Facts₀ where

variable [Facts]
-- ==== Proof.KernelBody.lean ====
/-
  What one grid point's body stores, read at an index.

  At a point the body loads a block `a` of 256 rows of the flattened activations, the whole weight `w` and the one-row
  bias `brow`, multiplies `a` by the transpose of `w` into a zero accumulator (contracting axis 1 of both), adds the bias
  row broadcast over the 256 rows, and stores the sum. At the extended reals the narrowing of `a` to a shorter float
  format is the identity and a product into a zero accumulator is the plain sum, so the stored block is
      block(p, q) = Σ_k a(p, k) · w(q, k) + brow(0, q).
-/
import proofs.«420045_j14207751815307_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Idealize.ShloMosaic Idealize.ShloMosaic.ValueIdx Cert.KernelIdeal Cert.KernelIdeal.Gen

/-! ## The product's index maps, axis by axis

The output index `(p, q)` and the contraction index `k` address the left operand at `(p, k)` and the right operand at
`(q, k)`: both operands contract their axis 1, the left one's axis 0 is the output's axis 0 and the right one's axis 0
the output's axis 1. -/

theorem lhs_axis0 (j : S256x4096.Idx) (q : dot_S256x4096_S4096x4096_S256x4096_1_1_0_0_n_n.contr.Idx) :
    (dot_S256x4096_S4096x4096_S256x4096_1_1_0_0_n_n.lhsIdx j q 0).val = (j 0).val := by
  unfold DotDims.lhsIdx
  rw [dif_neg (show ¬(0 : Fin S256x4096.rank) ∈ dot_S256x4096_S4096x4096_S256x4096_1_1_0_0_n_n.lhsBatch by decide), dif_pos (show (0 : Fin S256x4096.rank) ∈ dot_S256x4096_S4096x4096_S256x4096_1_1_0_0_n_n.lhsNonContracting by decide)]
  rfl
theorem lhs_axis1 (j : S256x4096.Idx) (q : dot_S256x4096_S4096x4096_S256x4096_1_1_0_0_n_n.contr.Idx) :
    (dot_S256x4096_S4096x4096_S256x4096_1_1_0_0_n_n.lhsIdx j q 1).val = (q ⟨0, by decide⟩).val :=
  dot_S256x4096_S4096x4096_S256x4096_1_1_0_0_n_n.lhsIdx_val_of_single rfl j q
theorem rhs_axis0 (j : S256x4096.Idx) (q : dot_S256x4096_S4096x4096_S256x4096_1_1_0_0_n_n.contr.Idx) :
    (dot_S256x4096_S4096x4096_S256x4096_1_1_0_0_n_n.rhsIdx j q 0).val = (j 1).val := by
  unfold DotDims.rhsIdx
  rw [dif_neg (show ¬(0 : Fin S4096x4096.rank) ∈ dot_S256x4096_S4096x4096_S256x4096_1_1_0_0_n_n.rhsBatch by decide), dif_pos (show (0 : Fin S4096x4096.rank) ∈ dot_S256x4096_S4096x4096_S256x4096_1_1_0_0_n_n.rhsNonContracting by decide)]
  rfl
theorem rhs_axis1 (j : S256x4096.Idx) (q : dot_S256x4096_S4096x4096_S256x4096_1_1_0_0_n_n.contr.Idx) :
    (dot_S256x4096_S4096x4096_S256x4096_1_1_0_0_n_n.rhsIdx j q 1).val = (q ⟨0, by decide⟩).val :=
  dot_S256x4096_S4096x4096_S256x4096_1_1_0_0_n_n.rhsIdx_val_of_single rfl j q

/-- The product into a zero accumulator, at `(p, q)`: Σ_k a(p, k) · w(q, k), the contraction's one axis re-indexed by
    `k < 4096`. -/
theorem product_apply (a : FVec Ideal S256x4096 .bf16) (w : FVec Ideal S4096x4096 .bf16) (p : Fin 256) (q : Fin 4096) :
    FloatOps.matmul dot_S256x4096_S4096x4096_S256x4096_1_1_0_0_n_n none a w (constant S256x4096 .f32 0x00000000#32) (ix2 p q)
      = ∑ k : Fin 4096, a (ix2 p k) * w (ix2 q k) := by
  rw [Ideal.matmul_constant_zero_apply, ← Equiv.sum_comp (contrEquiv1 dot_S256x4096_S4096x4096_S256x4096_1_1_0_0_n_n 4096 rfl rfl).symm]
  refine Finset.sum_congr rfl fun k _ => ?_
  have hk := contrEquiv1_symm_val dot_S256x4096_S4096x4096_S256x4096_1_1_0_0_n_n 4096 rfl rfl k
  have el : dot_S256x4096_S4096x4096_S256x4096_1_1_0_0_n_n.lhsIdx (ix2 p q) ((contrEquiv1 dot_S256x4096_S4096x4096_S256x4096_1_1_0_0_n_n 4096 rfl rfl).symm k) = ix2 p k := funext fun ax => Fin.ext (by
    match ax with
    | ⟨0, _⟩ => exact lhs_axis0 _ _
    | ⟨1, _⟩ => exact (lhs_axis1 _ _).trans hk)
  have er : dot_S256x4096_S4096x4096_S256x4096_1_1_0_0_n_n.rhsIdx (ix2 p q) ((contrEquiv1 dot_S256x4096_S4096x4096_S256x4096_1_1_0_0_n_n 4096 rfl rfl).symm k) = ix2 q k := funext fun ax => Fin.ext (by
    match ax with
    | ⟨0, _⟩ => exact rhs_axis0 _ _
    | ⟨1, _⟩ => exact (rhs_axis1 _ _).trans hk)
  rw [el, er]

/-- THE STORED BLOCK at `(p, q)`: Σ_k a(p, k) · w(q, k) + brow(0, q). The casts of a block to its own shape drop out, the
    narrowing of `a` is the identity at the extended reals, and the bias row is read at its one row. -/
theorem stored_apply (a : Vec Ideal S256x4096 .f32) (w : Vec Ideal S4096x4096 .bf16) (brow : Vec Ideal S1x4096 .f32)
    (p : Fin 256) (q : Fin 4096) :
    k0_pay1 (F := Ideal) a w brow (ix2 p q) = (∑ k : Fin 4096, a (ix2 p k) * w (ix2 q k)) + brow (ix2 (0 : Fin 1) q) := by
  show FloatOps.matmul (F := Ideal) dot_S256x4096_S4096x4096_S256x4096_1_1_0_0_n_n none (truncf (F := Ideal) .bf16 (shapeCast S256x4096 a _) _) (shapeCast S4096x4096 w _)
        (constant (F := Ideal) S256x4096 .f32 0x00000000#32) (ix2 p q)
      + broadcastTo S256x4096 (shapeCast S1x4096 brow _) _ (ix2 p q) = _
  rw [product_apply, broadcastTo_1b_ab_apply, shapeCast_self, shapeCast_self, shapeCast_self]
  rfl

end Cert.KernelIdeal.Body

end
-- ==== Proof.Linear.lean ====
/-
  The linear layer both programs compute, as ONE function of three arrays, and the re-indexing between its two
  spellings.

  With activations `x` of shape [4, 4096, 4096], a weight `w` of shape [4096, 4096] (output channel first) and a bias of
  shape [4096], the layer is
      out(b, s, o) = Σ_k x(b, s, k) · w(o, k) + bias(o).
  One side computes it on the batch as it stands. The other first flattens the two leading axes into 16384 rows,
  computes   rows(r, o) = Σ_k a(r, k) · w(o, k) + brow(0, o)   with the bias as a one-row array, and splits the rows
  again. Row `r = b · 4096 + s` of the flattened array is row `(b, s)` of the batch, in row-major order, so the two
  agree index by index: every sum runs over the same `k` with the same terms, and nothing is used of the extended reals
  beyond the terms being equal.
-/
import Idealize.ShloMosaic.Lib.ValueIdx
import Idealize.ShloMosaic.Lib.ValueLayout
import Idealize.ShloMosaic.Lib.Pipeline.Value

noncomputable section

namespace Cert.QuantLinear

open Idealize.ShloMosaic Idealize.ShloMosaic.ValueIdx

/-- The batch of activations and of results: [4, 4096, 4096]. -/
abbrev Sbatch : Shape := ⟨3, ![4, 4096, 4096]⟩
/-- The same with the two leading axes flattened: [16384, 4096]. -/
abbrev Srows : Shape := ⟨2, ![16384, 4096]⟩
/-- The weight, output channel first: [4096, 4096]. -/
abbrev Sweight : Shape := ⟨2, ![4096, 4096]⟩
/-- The bias: [4096]; and as one row: [1, 4096]. -/
abbrev Sbias : Shape := ⟨1, ![4096]⟩
abbrev Sbiasrow : Shape := ⟨2, ![1, 4096]⟩

/-- The layer on the batch: out(b, s, o) = Σ_k x(b, s, k) · w(o, k) + bias(o). -/
def linear (x : Sbatch.Idx → EReal) (w : Sweight.Idx → EReal) (bias : Sbias.Idx → EReal) : Sbatch.Idx → EReal :=
  fun i => (∑ k : Fin 4096, x (ix3 (i 0) (i 1) k) * w (ix2 (i 2) k)) + bias (ix1 (i 2))

/-- The layer on flattened rows, the bias a one-row array: rows(r, o) = Σ_k a(r, k) · w(o, k) + brow(0, o). -/
def linearRows (a : Srows.Idx → EReal) (w : Sweight.Idx → EReal) (brow : Sbiasrow.Idx → EReal) : Srows.Idx → EReal :=
  fun j => (∑ k : Fin 4096, a (ix2 (j 0) k) * w (ix2 (j 1) k)) + brow (ix2 (0 : Fin 1) (j 1))

/-- Row `b · 4096 + s` of the flattened array. -/
def row (b : Fin 4) (s : Fin 4096) : Fin 16384 := ⟨b.val * 4096 + s.val, by have := b.isLt; have := s.isLt; omega⟩

/-- Flattening the leading axes: entry `(b · 4096 + s, k)` of the rows is entry `(b, s, k)` of the batch — both sit at
    the row-major position `(b · 4096 + s) · 4096 + k`. -/
theorem flatten_apply {α : Type} (x : Sbatch.Idx → α) (h : Sbatch.ShapeCasts Srows) (b : Fin 4) (s k : Fin 4096) :
    shapeCast Srows x h (ix2 (row b s) k) = x (ix3 b s k) :=
  shapeCast_apply x h _ _ (by
    rw [Shape.rowMajor_val_three, Shape.rowMajor_val_two]
    rfl)

/-- Splitting the rows again: entry `(b, s, o)` of the batch is entry `(b · 4096 + s, o)` of the rows. -/
theorem split_apply {α : Type} (y : Srows.Idx → α) (h : Srows.ShapeCasts Sbatch) (b : Fin 4) (s o : Fin 4096) :
    shapeCast Sbatch y h (ix3 b s o) = y (ix2 (row b s) o) :=
  shapeCast_apply y h _ _ (by
    rw [Shape.rowMajor_val_three, Shape.rowMajor_val_two]
    rfl)

/-- THE LAW. The layer computed on flattened rows, with the bias as one row, and split into the batch again, is the
    layer on the batch: at `(b, s, o)` both are Σ_k x(b, s, k) · w(o, k) + bias(o), term by term. -/
theorem split_linearRows (x : Sbatch.Idx → EReal) (w : Sweight.Idx → EReal) (bias : Sbias.Idx → EReal)
    (hflat : Sbatch.ShapeCasts Srows) (hrow : Sbias.ShapeCasts Sbiasrow) (hsplit : Srows.ShapeCasts Sbatch) :
    shapeCast Sbatch (linearRows (shapeCast Srows x hflat) w (shapeCast Sbiasrow bias hrow)) hsplit = linear x w bias := by
  funext i
  obtain ⟨b, s, o, rfl⟩ : ∃ (b : Fin 4) (s o : Fin 4096), i = ix3 b s o := ⟨i 0, i 1, i 2, eq_ix3 i⟩
  rw [split_apply]
  show (∑ k : Fin 4096, shapeCast Srows x hflat (ix2 (row b s) k) * w (ix2 o k)) + shapeCast Sbiasrow bias hrow (ix2 (0 : Fin 1) o)
      = (∑ k : Fin 4096, x (ix3 b s k) * w (ix2 o k)) + bias (ix1 o)
  rw [shapeCast_a_1a_apply]
  exact congrArg (· + bias (ix1 o)) (Finset.sum_congr rfl fun k _ => by rw [flatten_apply])

end Cert.QuantLinear

end
-- ==== Proof.KernelBlocks.lean ====
/-
  From one point's block to the whole array of rows.

  The grid has 64 points. Point `t` stages rows `256·t … 256·t + 255` of the flattened activations (window 0), the whole
  weight (window 1) and the whole one-row bias (window 2), and writes back rows `256·t … 256·t + 255` of the result
  (window 3). What it writes back is therefore rows `256·t …` of ONE function of the three arrays as the region finds
  them — the layer on flattened rows, rows(r, o) = Σ_k a(r, k) · w(o, k) + brow(0, o) — because the body's stored block
  at `(p, q)` reads activations row `256·t + p`, weight row `q` and bias entry `q`. The 64 row-blocks tile the 16384
  rows (row `r` lies in the block of point `r / 256`), so after the last write-back the result array IS that function.
-/
import proofs.«420045_j14207751815307_3_alg».proof.Proof.Gen.KernelIdeal.Frame
import proofs.«420045_j14207751815307_3_alg».proof.Proof.KernelBody
import proofs.«420045_j14207751815307_3_alg».proof.Proof.Linear

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.QuantLinear

variable (m : (ℓ : Loc nD τ sig) → Buf (Elt Ideal) ℓ)

/-- Every access of the body starts at the origin of its buffer. -/
theorem origin : (![0, 0] : Fin 2 → Nat) = fun _ => 0 := funext fun a => by fin_cases a <;> rfl

/-! ## One stored block against the layer on rows -/

/-- A stored block entry `j = (p, q)` is the layer on rows at an array index `i` in column `q`, as soon as the staged
    activations' row `p` is the array's row `i 0`, and the staged weight and bias are the arrays' (read at row `q` and
    entry `q`). -/
theorem stored_eq_rows (a : Vec Ideal S256x4096 .f32) (w : Vec Ideal S4096x4096 .bf16) (brow : Vec Ideal S1x4096 .f32)
    (A : Srows.Idx → EReal) (W : Sweight.Idx → EReal) (B : Sbiasrow.Idx → EReal)
    (j : S256x4096.Idx) (i : Srows.Idx) (hcol : i 1 = j 1)
    (ha : ∀ k : Fin 4096, a (ix2 (j 0) k) = A (ix2 (i 0) k))
    (hw : ∀ k : Fin 4096, w (ix2 (j 1) k) = W (ix2 (j 1) k))
    (hb : brow (ix2 (0 : Fin 1) (j 1)) = B (ix2 (0 : Fin 1) (j 1))) :
    k0_pay1 (F := Ideal) a w brow j = linearRows A W B i := by
  refine ((congrArg (k0_pay1 (F := Ideal) a w brow) (eq_ix2 j)).trans (Body.stored_apply a w brow (j 0) (j 1))).trans ?_
  unfold linearRows
  rw [hcol, hb]
  exact congrArg (· + B (ix2 (0 : Fin 1) (j 1))) (Finset.sum_congr rfl fun k _ => by rw [ha k, hw k])

/-! ## The windows' block indices over the grid -/

/-- Decided over the 64 points: the activations' and the result's windows are at row-block `t`, column-block 0; the
    weight's and the bias's windows stay at block (0, 0). -/
theorem index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 63 ∧ win0_3.index t (1 : Fin 2) = 0 :=
  (by decide +kernel : ∀ t : Fin grid0.N, _)

/-- Every row-block is some point's. -/
theorem index_onto : ∀ q0 : Fin 64, ∃ t : Fin cfg0.N, win0_3.index t = ![q0.val, 0] :=
  (by decide +kernel : ∀ q0 : Fin 64, ∃ t : Fin grid0.N, win0_3.index t = ![q0.val, 0])

/-! ## What a point writes back -/

/-- WHAT POINT `t` WRITES BACK is block `t` of the layer on rows of the three arrays as the region finds them. -/
theorem flushed_eq (c : Dev nD) (t : Fin cfg0.N) :
    (dats m 0 c).flushed 3 t
      = ((cfg0.win 3).blk t).view.read (Elt Ideal) (linearRows (V m c main_v17) (V m c main_v15) (V m c main_v16)) := by
  show (cfg0.win 3).cut (grid0.coords t) ((dats m 0 c).after 3 t) = _
  rw [after0_3]
  unfold out0_3
  rw [View.canon_unit_zero origin]
  simp only [View.ld_unit_zero (S := S256x4096) origin, View.ld_unit_zero (S := S4096x4096) origin,
    View.ld_unit_zero (S := S1x4096) origin]
  obtain ⟨e00, e01, e10, e11, e20, e21, -, e31⟩ := index_facts t
  funext j
  show k0_pay1 (F := Ideal) (iblk m c 0 t) (iblk m c 1 t) (iblk m c 2 t) j
      = linearRows (V m c main_v17) (V m c main_v15) (V m c main_v16) (((cfg0.win 3).blk t).view.emb j)
  refine stored_eq_rows (iblk m c 0 t) (iblk m c 1 t) (iblk m c 2 t) (V m c main_v17) (V m c main_v15) (V m c main_v16)
    j (((cfg0.win 3).blk t).view.emb j) ?_ ?_ ?_ ?_
  · apply Fin.ext
    show win0_3.index t (1 : Fin 2) * 4096 + 1 * (j 1).val = (j 1).val
    omega
  · intro k
    show V m c main_v17 (((cfg0.win 0).blk t).view.emb (ix2 (j 0) k)) = V m c main_v17 (ix2 ((((cfg0.win 3).blk t).view.emb j) 0) k)
    refine congrArg (V m c main_v17) (funext fun ax => Fin.ext ?_)
    match ax with
    | ⟨0, _⟩ => show win0_0.index t (0 : Fin 2) * 256 + 1 * (j 0).val = win0_3.index t (0 : Fin 2) * 256 + 1 * (j 0).val; omega
    | ⟨1, _⟩ => show win0_0.index t (1 : Fin 2) * 4096 + 1 * k.val = k.val; omega
  · intro k
    show V m c main_v15 (((cfg0.win 1).blk t).view.emb (ix2 (j 1) k)) = V m c main_v15 (ix2 (j 1) k)
    refine congrArg (V m c main_v15) (funext fun ax => Fin.ext ?_)
    match ax with
    | ⟨0, _⟩ => show win0_1.index t (0 : Fin 2) * 4096 + 1 * (j 1).val = (j 1).val; omega
    | ⟨1, _⟩ => show win0_1.index t (1 : Fin 2) * 4096 + 1 * k.val = k.val; omega
  · show V m c main_v16 (((cfg0.win 2).blk t).view.emb (ix2 (0 : Fin 1) (j 1))) = V m c main_v16 (ix2 (0 : Fin 1) (j 1))
    refine congrArg (V m c main_v16) (funext fun ax => Fin.ext ?_)
    match ax with
    | ⟨0, _⟩ => show win0_2.index t (0 : Fin 2) * 1 + 1 * 0 = 0; omega
    | ⟨1, _⟩ => show win0_2.index t (1 : Fin 2) * 4096 + 1 * (j 1).val = (j 1).val; omega

/-! ## The row-blocks tile the rows -/

/-- An index of the result array is in point `t`'s block iff each coordinate is in the block's range on its axis. -/
theorem mem_block (t : Fin cfg0.N) (i : S16384x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v18).slice (win0_3.rect t)).set ↔ _
  rw [View.set_slice_whole, Rect.mem_set_unit]
  exact Iff.rfl

/-- Row `r` lies in the block of the point at row-block `r / 256`, which writes back. -/
theorem covered (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht⟩ := index_onto ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 4096 ≤ (i 1).val ∧ (i 1).val < win0_3.index t (1 : Fin 2) * 4096 + 4096; omega

/-- THE RESULT ARRAY after the region is the layer on rows of the three arrays as the region finds them. -/
theorem rows_final (c : Dev nD) :
    (dats m 0 c).arrAt 3 cfg0.N = linearRows (V m c main_v17) (V m c main_v15) (V m c main_v16) :=
  (dats m 0 c).arrAt_eq_of_cover 3 _ (fun t _ => flushed_eq m c t) covered

end Cert.KernelIdeal.Blocks

end
-- ==== Proof.KernelResult.lean ====
/-
  The idealized kernel's result, as the linear layer of the reference's own dequantised weight.

  Before the region the host lines prepare three arrays from the arguments: the activations with their two leading axes
  flattened into 16384 rows, the bias as one row, and the dequantised weight narrowed to a shorter float format. The
  weight is computed by the very operations the reference applies — the two nibbles of each packed word taken apart,
  interleaved high then low, converted, shifted by the zero point and scaled — so at the extended reals, where the
  narrowing is the identity, it IS the reference's weight stage, and it is never opened. The region leaves the layer on
  rows of these three arrays in the result array, and the one host line after the region splits the rows into the batch
  again. By the re-indexing law the kernel's result is the layer on the batch of the activations, that weight and the
  bias.
-/
import proofs.«420045_j14207751815307_3_alg».proof.Proof.KernelBlocks
import proofs.«420045_j14207751815307_3_alg».proof.Proof.Gen.ReferenceIdeal.Read
import Idealize.ShloMosaic.Lib.StableHlo.Run

set_option maxRecDepth 16384

noncomputable section

namespace Cert.KernelIdeal.Result

open Idealize.ShloMosaic Idealize.ShloMosaic.TcCoe Idealize.ShloMosaic.ValueIdx Idealize.SL.Sem Idealize.ShloMosaic.StableHlo
open Cert.KernelIdeal Cert.KernelIdeal.Gen Cert.QuantLinear

variable (m : (ℓ : Loc nD τ sig) → Buf (Elt Ideal) ℓ) (ρ : Dev nD → PrngReg)

/-! ## The three arrays the region finds -/

/-- The activations, their leading axes flattened. -/
theorem rows_in (c : Dev nD) :
    (V m c main_v17 : S16384x4096.Idx → EReal)
      = shapeCast S16384x4096 (m ((c : Thread nD τ).loc main_arg0) : S4x4096x4096.Idx → EReal) Gen.shapeCasts_S4x4096x4096_S16384x4096 := by
  show StableHlo.after hostOps0 (fun b => m (c, b)) (Proc.devRef .tc main_v17) = _
  after_results
  rfl

/-- The bias, as one row. -/
theorem biasrow_in (c : Dev nD) :
    (V m c main_v16 : S1x4096.Idx → EReal)
      = shapeCast S1x4096 (m ((c : Thread nD τ).loc main_arg4) : S4096.Idx → EReal) Gen.shapeCasts_S4096_S1x4096 := by
  show StableHlo.after hostOps0 (fun b => m (c, b)) (Proc.devRef .tc main_v16) = _
  after_results
  rfl

/-- The dequantised weight: the reference's weight stage of the packed words, the scales and the zero points. -/
theorem weight_in (c : Dev nD) :
    (V m c main_v15 : S4096x4096.Idx → EReal)
      = Cert.ReferenceIdeal.Read.val_main_v14 (F := Ideal) (m ((c : Thread nD τ).loc main_arg1))
          (m ((c : Thread nD τ).loc main_arg2)) (m ((c : Thread nD τ).loc main_arg3)) := by
  show StableHlo.after hostOps0 (fun b => m (c, b)) (Proc.devRef .tc main_v15) = _
  after_results
  rfl

/-! ## The line after the region -/

/-- The program's result is the region's result array with its rows split into the batch. -/
theorem split_out (c : Dev nD) :
    (Pipeline.afterTail₀ cfgs (dats m) 0 (V0 m) [hostOps1] c main_v19 : S4x4096x4096.Idx → EReal)
      = shapeCast S4x4096x4096 ((dats m 0 c).arrAt 3 cfg0.N : S16384x4096.Idx → EReal) Gen.shapeCasts_S16384x4096_S4x4096x4096 := by
  unfold Pipeline.afterTail₀
  show StableHlo.after hostOps1 _ (Proc.devRef .tc main_v19) = _
  after_results
  exact congrArg (fun y : S16384x4096.Idx → EReal => shapeCast S4x4096x4096 y Gen.shapeCasts_S16384x4096_S4x4096x4096)
    (Pipeline.withArrays_arr spec0 launch0.win.arr_inj c _ _ 3)

/-- THE RESULT: the layer on the batch of the activations, the reference's weight stage and the bias. -/
theorem result_eq (c : Dev nD) :
    (Pipeline.afterTail₀ cfgs (dats m) 0 (V0 m) [hostOps1] c main_v19 : S4x4096x4096.Idx → EReal)
      = linear (m ((c : Thread nD τ).loc main_arg0))
          (Cert.ReferenceIdeal.Read.val_main_v14 (F := Ideal) (m ((c : Thread nD τ).loc main_arg1))
            (m ((c : Thread nD τ).loc main_arg2)) (m ((c : Thread nD τ).loc main_arg3)))
          (m ((c : Thread nD τ).loc main_arg4)) := by
  rw [split_out, Blocks.rows_final, rows_in, biasrow_in, weight_in]
  exact split_linearRows _ _ _ _ _ _

/-! ## The run -/

/-- Every weakly fair execution of the idealized kernel terminates with its result at the linear layer and its
    arguments unchanged. -/
theorem run : θ_run defs (onTc (τ := τ) (main (F := Ideal))) ⟨m, fun _ => 0, ρ⟩ fun r => ∀ c : Dev nD,
      r.2.mem ((c.tc : Thread nD τ).loc main_v19)
        = linear (m ((c : Thread nD τ).loc main_arg0))
            (Cert.ReferenceIdeal.Read.val_main_v14 (F := Ideal) (m ((c : Thread nD τ).loc main_arg1))
              (m ((c : Thread nD τ).loc main_arg2)) (m ((c : Thread nD τ).loc main_arg3)))
            (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v19 (Pipeline.mem_restRefs_of main_v19 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.ReferenceLinear.lean ====
/-
  The reference is the linear layer of its own dequantised weight.

  Its last stage adds, to the contraction of the activations' axis 2 with the weight's axis 1, the bias broadcast over
  the batch. Read at `(b, s, o)`: the contraction addresses the activations at `(b, s, k)` and the weight at `(o, k)`, and
  the twice-broadcast bias is read at `o`; so the result is Σ_k x(b, s, k) · w(o, k) + bias(o) with `w` the stage that
  holds the dequantised weight, which is never opened here.
-/
import proofs.«420045_j14207751815307_3_alg».proof.Proof.Gen.ReferenceIdeal.Read
import proofs.«420045_j14207751815307_3_alg».proof.Proof.Linear

noncomputable section

namespace Cert.ReferenceIdeal.RefValue

open Idealize.ShloMosaic Idealize.ShloMosaic.ValueIdx Cert.ReferenceIdeal Cert.ReferenceIdeal.Gen Cert.ReferenceIdeal.Read
open Cert.QuantLinear

/-- The contraction reads the activations at `(b, s, k)`, -/
theorem lidx_eq (b : Fin 4) (s o k : Fin 4096) : lidx_main_v15 (ix3 b s o) k = ix3 b s k :=
  funext fun ax => Fin.ext (by match ax with | ⟨0, _⟩ => rfl | ⟨1, _⟩ => rfl | ⟨2, _⟩ => rfl)
/-- the weight at `(o, k)`, -/
theorem ridx_eq (b : Fin 4) (s o k : Fin 4096) : ridx_main_v15 (ix3 b s o) k = ix2 o k :=
  funext fun ax => Fin.ext (by match ax with | ⟨0, _⟩ => rfl | ⟨1, _⟩ => rfl)
/-- and the bias, broadcast to one row of one plane and then over the batch, is read at `o`. -/
theorem bidx_eq (b : Fin 4) (s o : Fin 4096) : idx_main_v16 (idx_main_v17 (ix3 b s o)) = ix1 o :=
  funext fun ax => Fin.ext (by match ax with | ⟨0, _⟩ => rfl)

/-- THE REFERENCE'S RESULT is the linear layer of the activations, the dequantised weight and the bias. -/
theorem result_eq (x0 : (⟨S4x4096x4096, .f32⟩ : BufTy).Contents (Elt Ideal)) (x1 : (⟨S4096x2048, .i32⟩ : BufTy).Contents (Elt Ideal))
    (x2 x3 : (⟨S4096x1, .f32⟩ : BufTy).Contents (Elt Ideal)) (x4 : (⟨S4096, .f32⟩ : BufTy).Contents (Elt Ideal)) :
    val_main_v18 (F := Ideal) x0 x1 x2 x3 x4 = linear x0 (val_main_v14 (F := Ideal) x1 x2 x3) x4 := by
  funext i
  obtain ⟨b, s, o, rfl⟩ : ∃ (b : Fin 4) (s o : Fin 4096), i = ix3 b s o := ⟨i 0, i 1, i 2, eq_ix3 i⟩
  rw [val_main_v18_apply, val_main_v15_apply, val_main_v17_apply, val_main_v16_apply]
  simp only [lidx_eq, ridx_eq, bidx_eq, Ideal.addf_def]
  rfl

end Cert.ReferenceIdeal.RefValue

end
-- ==== Proof.lean ====
/-
  A 4-bit-quantised linear layer: the kernel against its reference, over the extended reals.

  Both programs unpack each 32-bit word of the packed weight into its high and low nibble, interleave them high then
  low along the input-channel axis, and dequantise, w(o, i) = (nibble(o, i) − zero(o)) · scale(o); both then compute
      out(b, s, o) = Σ_i x(b, s, i) · w(o, i) + bias(o).
  The reference contracts the batch as it stands. The kernel flattens the batch into 16384 rows, narrows the weight and,
  inside the body, the activations to a shorter float format (the identity at the extended reals), computes 256 rows per
  grid point as a product into a zero accumulator plus the bias row, and splits the rows into the batch again.

  The dequantised weight is the SAME term of the arguments in both programs, so it is never opened; what is proved is
  that the two ways of laying out the contraction agree index by index (Proof/Linear.lean), that each grid point's
  stored block is the layer on rows (Proof/KernelBody.lean), that the 64 row-blocks tile the result (Proof/KernelBlocks.lean),
  that the host lines around the region flatten and split as said (Proof/KernelResult.lean), and that the reference's last
  stage is the layer on the batch (Proof/ReferenceLinear.lean). No finiteness of the inputs is used: the sums are over the
  same index with equal terms. The idealisation rewrote no operation, so its conjunct is trivial; the three frames are
  the generated ones, the reference's being its generated run with the result dropped.
-/
import proofs.«420045_j14207751815307_3_alg».proof.Defs
import proofs.«420045_j14207751815307_3_alg».proof.Proof.Gen.Kernel
import proofs.«420045_j14207751815307_3_alg».proof.Proof.Gen.Kernel.Skeleton
import proofs.«420045_j14207751815307_3_alg».proof.Proof.Gen.Kernel.Launch
import proofs.«420045_j14207751815307_3_alg».proof.Proof.Gen.Kernel.Points
import proofs.«420045_j14207751815307_3_alg».proof.Proof.Gen.Kernel.Frame
import proofs.«420045_j14207751815307_3_alg».proof.Proof.Gen.KernelIdeal
import proofs.«420045_j14207751815307_3_alg».proof.Proof.Gen.KernelIdeal.Skeleton
import proofs.«420045_j14207751815307_3_alg».proof.Proof.Gen.KernelIdeal.Launch
import proofs.«420045_j14207751815307_3_alg».proof.Proof.Gen.KernelIdeal.Points
import proofs.«420045_j14207751815307_3_alg».proof.Proof.Gen.KernelIdeal.Frame
import proofs.«420045_j14207751815307_3_alg».proof.Proof.Gen.ReferenceIdeal
import proofs.«420045_j14207751815307_3_alg».proof.Proof.Gen.ReferenceIdeal.Run
import proofs.«420045_j14207751815307_3_alg».proof.Proof.Gen.ReferenceIdeal.Read
import proofs.«420045_j14207751815307_3_alg».proof.Proof.Gen.Pre_finite_inputs
import proofs.«420045_j14207751815307_3_alg».proof.Proof.KernelResult
import proofs.«420045_j14207751815307_3_alg».proof.Proof.ReferenceLinear
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ
/-- So does the idealized kernel. -/
theorem frame_kernelIdeal : Cert.frame_KernelIdeal := fun m ρ _ => Cert.KernelIdeal.Gen.frame m ρ
/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments, both programs end with the linear layer of the activations, the
    dequantised weight and the bias: the kernel by its run, the reference by its run read at an index. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v18_eq _ _ _ _ _).trans (Cert.ReferenceIdeal.RefValue.result_eq _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
